-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S64x4 : Shape := ⟨2, ![64, 4]⟩
abbrev S4 : Shape := ⟨1, ![4]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S8x256x256x64 .f32) (main_arg1 : FVec F S64x4 .f32) (main_arg2 : FVec F S4 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S8x256x256x64 : Shape := ⟨4, ![8, 256, 256, 64]⟩
abbrev S64x4 : Shape := ⟨2, ![64, 4]⟩
abbrev S4 : Shape := ⟨1, ![4]⟩
abbrev S524288x64 : Shape := ⟨2, ![524288, 64]⟩
abbrev S1x4 : Shape := ⟨2, ![1, 4]⟩
abbrev S8192x64 : Shape := ⟨2, ![8192, 64]⟩
abbrev S8192x4 : Shape := ⟨2, ![8192, 4]⟩
abbrev S8192 : Shape := ⟨1, ![8192]⟩
abbrev S8192x1 : Shape := ⟨2, ![8192, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x256x256x64, .f32⟩
  | .hbm, ⟨1, _⟩ => ⟨S64x4, .f32⟩
  | .hbm, ⟨2, _⟩ => ⟨S4, .f32⟩
  | .hbm, ⟨3, _⟩ => ⟨S524288x64, .f32⟩
  | .hbm, ⟨4, _⟩ => ⟨S1x4, .f32⟩
  | .hbm, ⟨5, _⟩ => ⟨S524288x64, .f32⟩
  | .hbm, ⟨6, _⟩ => ⟨S8x256x256x64, .f32⟩
  | .local _ .vmem, ⟨0, _⟩ => ⟨S8192x64, .f32⟩
  | .local _ .vmem, ⟨1, _⟩ => ⟨S8192x64, .f32⟩
  | .local _ .vmem, ⟨2, _⟩ => ⟨S64x4, .f32⟩
  | .local _ .vmem, ⟨3, _⟩ => ⟨S1x4, .f32⟩
  | .local _ .vmem, ⟨4, _⟩ => ⟨S8192x64, .f32⟩
  | .local _ .vmem, ⟨5, _⟩ => ⟨S8192x64, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x256x256x64_S524288x64 : S8x256x256x64.ShapeCasts S524288x64
  shapeCasts_S4_S1x4 : S4.ShapeCasts S1x4
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8192x4 : S1x4.Broadcasts S8192x4
  reduces_S8192x4_S8192 : S8192x4.Reduces [1] S8192
  shapeCasts_S8192_S8192x1 : S8192.ShapeCasts S8192x1
  shapeCasts_S8192x1_S8192x1 : S8192x1.ShapeCasts S8192x1
  broadcasts_S8192x1_S8192x64 : S8192x1.Broadcasts S8192x64
  shapeCasts_S524288x64_S8x256x256x64 : S524288x64.ShapeCasts S8x256x256x64
  dot_S8192x64_S64x4_S8192x4_1_0_0_1_n_n_wf : DotDims.WF S8192x64 S64x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .f32 = 32 ∨ (Rect.block (s := S524288x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S524288x64.size a
  hwx0_3 : ∀ i : grid0.Coords, EltTy.bits .f32 = 32 ∨ (Rect.block (s := S524288x64) S8192x64.size (cc0_transform_3 i) (hinb0_3 i)).WholeWords (EltTy.packing .f32)

variable [Facts₀]

def dot_S8192x64_S64x4_S8192x4_1_0_0_1_n_n : DotDims S8192x64 S64x4 S8192x4 where
  lhsContracting := [1]
  rhsContracting := [0]
  lhsNonContracting := [0]
  rhsNonContracting := [1]
  lhsBatch := []
  rhsBatch := []
  wf := dot_S8192x64_S64x4_S8192x4_1_0_0_1_n_n_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S64x4 : Shape := ⟨2, ![64, 4]⟩
abbrev S4 : Shape := ⟨1, ![4]⟩
abbrev S8x256x256x4 : Shape := ⟨4, ![8, 256, 256, 4]⟩
abbrev S1x1x1x4 : Shape := ⟨4, ![1, 1, 1, 4]⟩
abbrev S_ : Shape := ⟨0, ![]⟩
abbrev S8x256x256 : Shape := ⟨3, ![8, 256, 256]⟩
abbrev S8x256x256x1 : Shape := ⟨4, ![8, 256, 256, 1]⟩

abbrev nBuf : Space → Nat
  | .hbm => 14
  | .vmem => 0
  | .smem => 0
  | _ => 0

abbrev bufTy : (tb : Table) → Fin (tcTables nBuf tb) → BufTy
  | .hbm, ⟨0, _⟩ => ⟨S8x256x256x64, .f32⟩
  | .hbm, ⟨1, _⟩ => ⟨S64x4, .f32⟩
  | .hbm, ⟨2, _⟩ => ⟨S4, .f32⟩
  | .hbm, ⟨3, _⟩ => ⟨S8x256x256x4, .f32⟩
  | .hbm, ⟨4, _⟩ => ⟨S1x1x1x4, .f32⟩
  | .hbm, ⟨5, _⟩ => ⟨S8x256x256x4, .f32⟩
  | .hbm, ⟨6, _⟩ => ⟨S8x256x256x4, .f32⟩
  | .hbm, ⟨7, _⟩ => ⟨S_, .f32⟩
  | .hbm, ⟨8, _⟩ => ⟨S8x256x256x4, .f32⟩
  | .hbm, ⟨9, _⟩ => ⟨S8x256x256x4, .f32⟩
  | .hbm, ⟨10, _⟩ => ⟨S_, .f32⟩
  | .hbm, ⟨11, _⟩ => ⟨S8x256x256, .f32⟩
  | .hbm, ⟨12, _⟩ => ⟨S8x256x256x1, .f32⟩
  | .hbm, ⟨13, _⟩ => ⟨S8x256x256x64, .f32⟩
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S4_S1x1x1x4_3 : S4.BroadcastsInDim S1x1x1x4 (![3] : Fin 1 → Fin S1x1x1x4.rank)
  bcast_S1x1x1x4_S8x256x256x4_0_1_2_3 : S1x1x1x4.BroadcastsInDim S8x256x256x4 (![0, 1, 2, 3] : Fin 4 → Fin S8x256x256x4.rank)
  bcast_S_S8x256x256x4 : S_.BroadcastsInDim S8x256x256x4 (![] : Fin 0 → Fin S8x256x256x4.rank)
  reducesTo_S8x256x256x4_S8x256x256_d3 : S8x256x256x4.ReducesTo [3] S8x256x256
  h_S_ : 0 < S_.numel
  bcast_S8x256x256_S8x256x256x1_0_1_2 : S8x256x256.BroadcastsInDim S8x256x256x1 (![0, 1, 2] : Fin 3 → Fin S8x256x256x1.rank)
  bcast_S8x256x256x1_S8x256x256x64_0_1_2_3 : S8x256x256x1.BroadcastsInDim S8x256x256x64 (![0, 1, 2, 3] : Fin 4 → Fin S8x256x256x64.rank)
  dot_S8x256x256x64_S64x4_S8x256x256x4_3_0_012_1_n_n_wf : DotDims.WF S8x256x256x64 S64x4 S8x256x256x4 [3] [0] [0, 1, 2] [1] [] []

variable [Facts₀]

def dot_S8x256x256x64_S64x4_S8x256x256x4_3_0_012_1_n_n : DotDims S8x256x256x64 S64x4 S8x256x256x4 where
  lhsContracting := [3]
  rhsContracting := [0]
  lhsNonContracting := [0, 1, 2]
  rhsNonContracting := [1]
  lhsBatch := []
  rhsBatch := []
  wf := dot_S8x256x256x64_S64x4_S8x256x256x4_3_0_012_1_n_n_wf

class Facts : Prop extends Facts₀ where

variable [Facts]
-- ==== Proof.Layer.lean ====
/-
  A maxout layer over a 1×1 convolution, on the extended reals.

  A pixel has 64 channels. Four filters each take the inner product of the pixel's channels with one column of the
  64 × 4 weight matrix, add that filter's bias and rectify (the larger of the sum and zero); the pixel's value is the largest
  of the four rectified responses, taken as a fold of `max` from −∞. The layer writes that one value to all 64 output
  channels of the pixel.

  The same layer is stated twice: on the pixels laid out as the 524288 rows of a matrix (row r is pixel r in row-major
  order of batch, height, width), and on the images themselves. The one law proved here joins the two: reshaping
  the images to rows, applying the layer on rows and reshaping back is the layer on images, because row
  (n·256 + h)·256 + w of the matrix is pixel (n, h, w) and a reshape keeps row-major positions.
-/
import Idealize.ShloMosaic.PureOps.Ideal
import Idealize.ShloMosaic.Lib.ValueIdx
import Idealize.ShloMosaic.Lib.Pipeline.Value

noncomputable section

namespace Cert.Maxout

open Idealize.ShloMosaic Idealize.ShloMosaic.ValueIdx

/-- Images: batch, height, width, channel. -/
abbrev Images : Shape := ⟨4, ![8, 256, 256, 64]⟩
/-- The same pixels as the rows of a matrix. -/
abbrev Rows : Shape := ⟨2, ![524288, 64]⟩
/-- The weights: input channel by filter. -/
abbrev Weights : Shape := ⟨2, ![64, 4]⟩
/-- One bias per filter, -/
abbrev Biases : Shape := ⟨1, ![4]⟩
/-- and the same as a one-row matrix. -/
abbrev BiasRow : Shape := ⟨2, ![1, 4]⟩

/-- Filter f's rectified response to a pixel: max (Σₖ rowₖ · W(k, f) + bias f, 0). -/
def response (row : Fin 64 → EReal) (W : Weights.Idx → EReal) (bias : Fin 4 → EReal) (f : Fin 4) : EReal :=
  max ((∑ k : Fin 64, row k * W (ix2 k f)) + bias f) (Ideal.ofBits .f32 0x00000000#32)

/-- The pixel's value: the largest of the four rectified responses, folded from −∞. -/
def pixel (row : Fin 64 → EReal) (W : Weights.Idx → EReal) (bias : Fin 4 → EReal) : EReal :=
  (Finset.univ : Finset (Fin 4)).fold max (Ideal.ofBits .f32 0xFF800000#32) (response row W bias)

/-- The layer on rows: every column of output row r holds the value of input row r. -/
def onRows (X : Rows.Idx → EReal) (W : Weights.Idx → EReal) (B : BiasRow.Idx → EReal) : Rows.Idx → EReal :=
  fun i => pixel (fun k => X (ix2 (i 0) k)) W (fun f => B (ix2 (0 : Fin 1) f))

/-- The layer on images: every output channel of pixel (n, h, w) holds that pixel's value. -/
def onImages (x : Images.Idx → EReal) (W : Weights.Idx → EReal) (b : Biases.Idx → EReal) : Images.Idx → EReal :=
  fun i => pixel (fun k => x (ix4 (i 0) (i 1) (i 2) k)) W (fun f => b (ix1 f))

/-- Reshape to rows, apply the layer on rows, reshape back: the layer on images. Row (n·256 + h)·256 + w is pixel
    (n, h, w), channel for channel, and the one-row bias matrix reads the bias vector. -/
theorem reshape_onRows (x : Images.Idx → EReal) (W : Weights.Idx → EReal) (b : Biases.Idx → EReal)
    (h1 : Images.ShapeCasts Rows) (h2 : Biases.ShapeCasts BiasRow) (h3 : Rows.ShapeCasts Images) :
    shapeCast Images (onRows (shapeCast Rows x h1) W (shapeCast BiasRow b h2)) h3 = onImages x W b := by
  funext i
  obtain ⟨n, h, w, j, rfl⟩ : ∃ n h w j, i = ix4 n h w j := ⟨i 0, i 1, i 2, i 3, eq_ix4 i⟩
  have hn : n.val < 8 := n.isLt
  have hh : h.val < 256 := h.isLt
  have hw : w.val < 256 := w.isLt
  have hr : (n.val * 256 + h.val) * 256 + w.val < 524288 := by omega
  rw [shapeCast_apply _ h3 (ix4 n h w j) (ix2 (⟨(n.val * 256 + h.val) * 256 + w.val, hr⟩ : Fin 524288) j) (by
    rw [Shape.rowMajor_val_two, Shape.rowMajor_val_four]; rfl)]
  have e1 : (fun k : Fin 64 => shapeCast Rows x h1 (ix2 (⟨(n.val * 256 + h.val) * 256 + w.val, hr⟩ : Fin 524288) k))
      = fun k => x (ix4 n h w k) :=
    funext fun k => shapeCast_apply x h1 _ (ix4 n h w k) (by
      rw [Shape.rowMajor_val_two, Shape.rowMajor_val_four]; rfl)
  have e2 : (fun f : Fin 4 => shapeCast BiasRow b h2 (ix2 (0 : Fin 1) f)) = fun f => b (ix1 f) :=
    funext fun f => shapeCast_apply b h2 _ (ix1 f) (by
      rw [Shape.rowMajor_val_one, Shape.rowMajor_val_two]
      show f.val = 0 * 4 + f.val
      omega)
  show pixel (fun k => shapeCast Rows x h1 (ix2 (⟨(n.val * 256 + h.val) * 256 + w.val, hr⟩ : Fin 524288) k)) W
      (fun f => shapeCast BiasRow b h2 (ix2 (0 : Fin 1) f)) = pixel (fun k => x (ix4 n h w k)) W (fun f => b (ix1 f))
  rw [e1, e2]

end Cert.Maxout

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.BodyValue.lean ====
/-
  What the kernel body stores, read at one element.

  The body multiplies its 8192 × 64 block of pixel rows by the 64 × 4 weights (a product into a zero accumulator: at the
  extended reals the plain sum over the 64 channels, the narrowing of both operands being the identity), adds the one-row
  bias broadcast down the rows, rectifies, takes each row's maximum over the four filters as a fold of `max` from −∞,
  and broadcasts that column over the 64 output channels. So element (p, q) of what it stores is the value of the
  block's row p, whatever q.
-/
import proofs.«128632_j35828617183845_1_alg».proof.Proof.Gen.KernelIdeal.Skeleton
import proofs.«128632_j35828617183845_1_alg».proof.Proof.Layer
import proofs.«128632_j35828617183845_1_alg».proof.Proof.LibKeepdims
import proofs.«128632_j35828617183845_1_alg».proof.Proof.LibPlainDot
import Idealize.ShloMosaic.Lib.ValueLayout
import Idealize.ShloMosaic.PureOps.Ideal.Laws

noncomputable section

namespace Cert.Maxout.Body

open Idealize.ShloMosaic Idealize.ShloMosaic.ValueIdx
open Cert.KernelIdeal Cert.KernelIdeal.Gen

/-- Inserting filter f into the reduced index of row p gives (p, f). -/
theorem filter_index (p : Fin 8192) (f : Fin 4) : reduces_S8192x4_S8192.lift (ix1 p) f = ix2 p f := by
  funext a
  apply Fin.ext
  match a with
  | ⟨0, _⟩ => rfl
  | ⟨1, _⟩ => rfl

/-- The block's rectified sums: the product of the rows with the weights, plus the bias row, against zero. -/
def rectified (x0 : FVec Ideal S8192x64 .f32) (x1 : FVec Ideal S64x4 .f32) (x2 : FVec Ideal S1x4 .f32) : FVec Ideal S8192x4 .f32 :=
  maximumf
    (addf
      (matmul dot_S8192x64_S64x4_S8192x4_1_0_0_1_n_n none
        (truncf .bf16 (shapeCast S8192x64 x0 shapeCasts_S8192x64_S8192x64) bitsLt_bf16_f32)
        (truncf .bf16 x1 bitsLt_bf16_f32) (constant S8192x4 .f32 0x00000000#32))
      (broadcastTo S8192x4 (shapeCast S1x4 x2 shapeCasts_S1x4_S1x4) broadcasts_S1x4_S8192x4))
    (broadcast S8192x4 (Scalar.ofBits .f32 0x00000000#32))

/-- At (p, f) it is filter f's response to row p. -/
theorem rectified_apply (x0 : FVec Ideal S8192x64 .f32) (x1 : FVec Ideal S64x4 .f32) (x2 : FVec Ideal S1x4 .f32)
    (p : Fin 8192) (f : Fin 4) :
    rectified x0 x1 x2 (ix2 p f) = response (fun k => x0 (ix2 p k)) x1 (fun g => x2 (ix2 (0 : Fin 1) g)) f := by
  unfold rectified response
  rw [shapeCast_self, shapeCast_self, maximumf_apply, addf_apply, broadcast_apply, broadcastTo_1b_ab_apply]
  rw [show matmul dot_S8192x64_S64x4_S8192x4_1_0_0_1_n_n none (truncf .bf16 x0 bitsLt_bf16_f32)
      (truncf .bf16 x1 bitsLt_bf16_f32) (constant S8192x4 .f32 0x00000000#32) (ix2 p f)
        = ∑ k : Fin 64, (truncf .bf16 x0 bitsLt_bf16_f32 : FVec Ideal S8192x64 .bf16) (ix2 p k)
            * (truncf .bf16 x1 bitsLt_bf16_f32 : FVec Ideal S64x4 .bf16) (ix2 k f)
      from Cert.Lib.PlainDot.matmul_zero_apply 8192 64 4 none _ _ p f]
  rfl

/-- A row's maximum over the four filters, taken from −∞ (the accumulator's word, equal to itself, is the evidence the
    body's reduction carries): the fold of `max` over the row's entries. -/
theorem rowMax_apply (src : FVec Ideal S8192x4 .f32) (hφ : FKind.Formats .f32)
    (hacc : (0xFF800000#32 : BitVec 32) = 0xFF800000#32) (p : Fin 8192) :
    multiReduction .maximumf [1] S8192 src 0xFF800000#32 reduces_S8192x4_S8192 hφ hacc (ix1 p)
      = Finset.fold max (Ideal.ofBits .f32 0xFF800000#32) (fun f : Fin 4 => src (ix2 p f)) Finset.univ := by
  refine (Ideal.multiReduction_maximumf_single src 0xFF800000#32 reduces_S8192x4_S8192 hφ hacc (ix1 p)).trans ?_
  exact Finset.fold_congr fun f _ => congrArg src (filter_index p f)

/-- Element (p, q) of what the body stores is the value of the block's row p. -/
theorem stored_apply (x0 : Vec Ideal S8192x64 .f32) (x1 : Vec Ideal S64x4 .f32) (x2 : Vec Ideal S1x4 .f32)
    (p : Fin 8192) (q : Fin 64) :
    k0_pay1 (F := Ideal) x0 x1 x2 (ix2 p q) = pixel (fun k => x0 (ix2 p k)) x1 (fun g => x2 (ix2 (0 : Fin 1) g)) := by
  unfold k0_pay1
  rw [Cert.Lib.Keepdims.broadcastTo_a1_ab_apply, shapeCast_self, Cert.Lib.Keepdims.shapeCast_a_a1_apply]
  refine (rowMax_apply _ _ _ p).trans ?_
  unfold pixel
  exact Finset.fold_congr fun f _ => rectified_apply x0 x1 x2 p f

/-- The same against the layer on rows: if the block's row p is row r of a matrix X, its weights are W and its
    bias row is B, then element (p, q) of what the body stores is the layer on rows of X, W, B at any index of row r. -/
theorem stored_eq_onRows (x0 : Vec Ideal S8192x64 .f32) (x1 : Vec Ideal S64x4 .f32) (x2 : Vec Ideal S1x4 .f32)
    (X : Rows.Idx → EReal) (W : Weights.Idx → EReal) (B : BiasRow.Idx → EReal) (p : Fin 8192) (q : Fin 64) (i : Rows.Idx)
    (hx : ∀ k : Fin 64, x0 (ix2 p k) = X (ix2 (i 0) k)) (hw : ∀ j, x1 j = W j)
    (hb : ∀ g : Fin 4, x2 (ix2 (0 : Fin 1) g) = B (ix2 (0 : Fin 1) g)) :
    k0_pay1 (F := Ideal) x0 x1 x2 (ix2 p q) = onRows X W B i := by
  rw [stored_apply]
  unfold onRows
  rw [show (fun k : Fin 64 => x0 (ix2 p k)) = fun k => X (ix2 (i 0) k) from funext hx,
    show x1 = W from funext hw,
    show (fun g : Fin 4 => x2 (ix2 (0 : Fin 1) g)) = fun g => B (ix2 (0 : Fin 1) g) from funext hb]

end Cert.Maxout.Body

end
-- ==== Proof.KernelLayer.lean ====
/-
  The idealized kernel program's result is the maxout layer on images.

  The program reshapes the images to 524288 pixel rows and the bias vector to a one-row matrix, runs the body over a grid
  of 64 points, and reshapes the 524288 × 64 result back to images. At point t the body sees rows 8192·t … 8192·t + 8191
  of the pixel matrix, the whole weights and the whole bias row, and what it stores is written back to the same rows of
  the result. Element (p, q) of what it stores is the value of the block's row p, that is of matrix row 8192·t + p:
  the write-back is a block of the layer on rows. Row r lies in the block of point r / 8192, so the blocks cover the
  result, which therefore is the layer on rows of the reshaped inputs; the law of the layer's two statements turns the
  final reshape of it into the layer on images.
-/
import proofs.«128632_j35828617183845_1_alg».proof.Proof.Gen.KernelIdeal.Frame
import proofs.«128632_j35828617183845_1_alg».proof.Proof.BodyValue
import Idealize.ShloMosaic.Lib.Pipeline.Value
import Idealize.ShloMosaic.Lib.StableHlo.Run
import Idealize.ShloMosaic.Lib.Tactic

set_option maxRecDepth 16384

noncomputable section

namespace Cert.Maxout.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zeros : (![0, 0] : Fin 2 → Nat) = fun _ => 0 := funext fun a => by fin_cases a <;> rfl

/-- The block indices at point t: the pixel rows and the result move down one block of rows per point; the weights and
    the bias row stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer on rows of the arrays as the region finds them. -/
theorem written_back (c : Dev nD) (t : Fin cfg0.N) :
    (dats m 0 c).flushed 3 t
      = ((cfg0.win 3).blk t).view.read (Elt Ideal) (onRows (V m c main_v0) (V m c main_arg1) (V m c main_v1)) := by
  show (cfg0.win 3).cut (grid0.coords t) ((dats m 0 c).after 3 t) = _
  rw [after0_3]
  unfold out0_3
  rw [View.canon_unit_zero zeros]
  simp only [View.ld_unit_zero (S := S8192x64) zeros, View.ld_unit_zero (S := S64x4) zeros, View.ld_unit_zero (S := S1x4) zeros]
  obtain ⟨a0, a1, b0, b1, d0, d1, e0, e1⟩ := block_indices t
  funext y
  obtain ⟨p, q, rfl⟩ : ∃ (p : Fin 8192) (q : Fin 64), y = ix2 p q := ⟨y 0, y 1, eq_ix2 y⟩
  show k0_pay1 (F := Ideal) (iblk m c 0 t) (iblk m c 1 t) (iblk m c 2 t) (ix2 p q)
    = onRows (V m c main_v0) (V m c main_arg1) (V m c main_v1) (((cfg0.win 3).blk t).view.emb (ix2 p q))
  refine Body.stored_eq_onRows (iblk m c 0 t) (iblk m c 1 t) (iblk m c 2 t) (V m c main_v0) (V m c main_arg1) (V m c main_v1)
    p q _ (fun k => ?_) (fun j => ?_) (fun g => ?_)
  · show V m c main_v0 (((cfg0.win 0).blk t).view.emb (ix2 p k))
      = V m c main_v0 (ix2 ((((cfg0.win 3).blk t).view.emb (ix2 p q)) 0) k)
    refine congrArg (V m c main_v0) (funext fun a => Fin.ext ?_)
    match a with
    | ⟨0, _⟩ =>
      show win0_0.index t (0 : Fin 2) * 8192 + 1 * p.val = win0_3.index t (0 : Fin 2) * 8192 + 1 * p.val
      omega
    | ⟨1, _⟩ =>
      show win0_0.index t (1 : Fin 2) * 64 + 1 * k.val = k.val
      omega
  · show V m c main_arg1 (((cfg0.win 1).blk t).view.emb j) = V m c main_arg1 j
    refine congrArg (V m c main_arg1) (funext fun a => Fin.ext ?_)
    match a with
    | ⟨0, _⟩ =>
      show win0_1.index t (0 : Fin 2) * 64 + 1 * (j 0).val = (j 0).val
      omega
    | ⟨1, _⟩ =>
      show win0_1.index t (1 : Fin 2) * 4 + 1 * (j 1).val = (j 1).val
      omega
  · show V m c main_v1 (((cfg0.win 2).blk t).view.emb (ix2 (0 : Fin 1) g)) = V m c main_v1 (ix2 (0 : Fin 1) g)
    refine congrArg (V m c main_v1) (funext fun a => Fin.ext ?_)
    match a with
    | ⟨0, _⟩ =>
      show win0_2.index t (0 : Fin 2) * 1 + 1 * 0 = 0
      omega
    | ⟨1, _⟩ =>
      show win0_2.index t (1 : Fin 2) * 4 + 1 * g.val = g.val
      omega

/-- An index of the result is in point t's block iff each coordinate is in the block's range on its axis. -/
theorem mem_block (t : Fin cfg0.N) (i : S524288x64.Idx) :
    i ∈ ((cfg0.win 3).blk t).view.set
      ↔ ∀ a : Fin 2, win0_3.index t a * S8192x64.size a ≤ (i a).val
          ∧ (i a).val < win0_3.index t a * S8192x64.size a + S8192x64.size a := by
  show i ∈ ((View.whole main_v2).slice (win0_3.rect t)).set ↔ _
  rw [View.set_slice_whole, Rect.mem_set_unit]
  exact Iff.rfl

/-- Row r of the result is in the block of point r / 8192: the blocks cover the result. -/
theorem covered (i : S524288x64.Idx) :
    ∃ t : Fin cfg0.N, (cfg0.win 3).flush t = true ∧ i ∈ ((cfg0.win 3).blk t).view.set := by
  have hi0 : (i 0).val < 524288 := (i 0).isLt
  have hi1 : (i 1).val < 64 := (i 1).isLt
  have hN : cfg0.N = 64 := N_0
  obtain ⟨t, ht⟩ : ∃ t : Fin cfg0.N, t.val = (i 0).val / 8192 := ⟨⟨(i 0).val / 8192, by rw [hN]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 64 ≤ (i 1).val ∧ (i 1).val < win0_3.index t (1 : Fin 2) * 64 + 64
    omega

/-- The result array after the region: the layer on rows of the arrays as the region finds them. -/
theorem rows_after (c : Dev nD) :
    (dats m 0 c).arrAt 3 cfg0.N = onRows (V m c main_v0) (V m c main_arg1) (V m c main_v1) :=
  (dats m 0 c).arrAt_eq_of_cover 3 _ (fun t _ => written_back m c t) covered

/-- The region finds the pixel matrix at the images reshaped, -/
theorem pixels_in (c : Dev nD) :
    (V m c main_v0 : S524288x64.Idx → EReal)
      = shapeCast S524288x64 (m ((c : Thread nD τ).loc main_arg0)) shapeCasts_S8x256x256x64_S524288x64 := by
  show StableHlo.after hostOps0 (fun b => m (c, b)) (Proc.devRef .tc main_v0) = _
  after_results
  rfl

/-- and the bias row at the bias vector reshaped. -/
theorem bias_in (c : Dev nD) :
    (V m c main_v1 : S1x4.Idx → EReal)
      = shapeCast S1x4 (m ((c : Thread nD τ).loc main_arg2)) shapeCasts_S4_S1x4 := by
  show StableHlo.after hostOps0 (fun b => m (c, b)) (Proc.devRef .tc main_v1) = _
  after_results
  rfl

/-- The program's result, the reshape of the result array after the region, is the layer on images of the arguments. -/
theorem images_out (c : Dev nD) :
    (Pipeline.afterTail₀ cfgs (dats m) 0 (V0 m) [hostOps1] c main_v3 : S8x256x256x64.Idx → EReal)
      = onImages (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hrows : Pipeline.withArrays (cfgs 0).spec c (V0 m c) (fun w => (dats m 0 c).arrAt w (cfgs 0).N) (Proc.devRef .tc main_v2)
      = onRows (V m c main_v0) (V m c main_arg1) (V m c main_v1) :=
    (Pipeline.withArrays_arr spec0 launch0.win.arr_inj c (V0 m c) _ 3).trans (rows_after m c)
  have hin : onRows (V m c main_v0) (V m c main_arg1) (V m c main_v1)
      = onRows (shapeCast S524288x64 (m ((c : Thread nD τ).loc main_arg0)) shapeCasts_S8x256x256x64_S524288x64)
          (m ((c : Thread nD τ).loc main_arg1))
          (shapeCast S1x4 (m ((c : Thread nD τ).loc main_arg2)) shapeCasts_S4_S1x4) := by
    rw [pixels_in m c, bias_in m c, V_main_arg1 m c]
  refine (congrArg (fun A : S524288x64.Idx → EReal => shapeCast S8x256x256x64 A shapeCasts_S524288x64_S8x256x256x64)
    (hrows.trans hin)).trans ?_
  exact reshape_onRows _ _ _ _ _ _

/-- Every weakly fair execution of the idealized kernel program ends with its result at the layer on images of the
    arguments, and the arguments as they were. -/
theorem run : θ_run defs (onTc (τ := τ) (main (F := Ideal))) ⟨m, fun _ => 0, ρ⟩ fun r => ∀ c : Dev nD,
      r.2.mem ((c.tc : Thread nD τ).loc main_v3)
        = onImages (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (images_out m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Maxout.Kernel

end
-- ==== Proof.ReferenceLayer.lean ====
/-
  The reference program's result, read element by element, is the maxout layer on images.

  The reference contracts the channel axis of the images against the weights, adds the bias broadcast over the pixels,
  rectifies, reduces the four filters with `max` from −∞ and broadcasts the result over 64 output channels. Read at
  an output index (n, h, w, j): the two broadcasts forget j; the reduction is a fold of `max` over the filter
  coordinate inserted after (n, h, w); under it the rectified sum is the filter's response to pixel (n, h, w).
-/
import proofs.«128632_j35828617183845_1_alg».proof.Proof.Gen.ReferenceIdeal.Read
import proofs.«128632_j35828617183845_1_alg».proof.Proof.Layer
import Idealize.ShloMosaic.PureOps.Ideal.Laws

noncomputable section

namespace Cert.Maxout.Reference

open Idealize.ShloMosaic Idealize.ShloMosaic.ValueIdx
open Cert.ReferenceIdeal Cert.ReferenceIdeal.Gen Cert.ReferenceIdeal.Read

/-- Dropping the filter axis of the responses leaves the pixel axes. -/
theorem dropFilters : S8x256x256x4.Reduces [3] S8x256x256 := by decide

/-- Inserting filter f after the pixel coordinates of an output index gives the response's index (n, h, w, f); read
    through the contraction's left index map with channel k it is the image index (n, h, w, k), -/
theorem image_index (i : S8x256x256x64.Idx) (f : Fin 4) (k : Fin 64) :
    lidx_main_v0 (dropFilters.lift (idx_main_v6 (idx_main_v7 i)) f) k = ix4 (i 0) (i 1) (i 2) k := by
  funext a
  apply Fin.ext
  match a with
  | ⟨0, _⟩ => rfl
  | ⟨1, _⟩ => rfl
  | ⟨2, _⟩ => rfl
  | ⟨3, _⟩ => rfl

/-- through the right index map the weight index (k, f), -/
theorem weight_index (i : S8x256x256x64.Idx) (f : Fin 4) (k : Fin 64) :
    ridx_main_v0 (dropFilters.lift (idx_main_v6 (idx_main_v7 i)) f) k = ix2 k f := by
  funext a
  apply Fin.ext
  match a with
  | ⟨0, _⟩ => rfl
  | ⟨1, _⟩ => rfl

/-- and through the two bias broadcasts the bias index f. -/
theorem bias_index (i : S8x256x256x64.Idx) (f : Fin 4) :
    idx_main_v1 (idx_main_v2 (dropFilters.lift (idx_main_v6 (idx_main_v7 i)) f)) = ix1 f := by
  funext a
  apply Fin.ext
  match a with
  | ⟨0, _⟩ => rfl

/-- The rectified sum at (n, h, w, f) is filter f's response to pixel (n, h, w). -/
theorem rectified_apply (x : Images.Idx → EReal) (W : Weights.Idx → EReal) (b : Biases.Idx → EReal)
    (i : S8x256x256x64.Idx) (f : Fin 4) :
    val_main_v4 (F := Ideal) x W b (dropFilters.lift (idx_main_v6 (idx_main_v7 i)) f)
      = response (fun k => x (ix4 (i 0) (i 1) (i 2) k)) W (fun g => b (ix1 g)) f := by
  rw [val_main_v4_apply, val_main_v3_apply, val_main_v0_apply, val_main_v2_apply, val_main_v1_apply,
    val_main_call0_v0_apply, val_main_call0_cst_apply, bias_index]
  simp only [image_index, weight_index]
  rfl

/-- The reference's result is the layer on images. -/
theorem result_eq (x : Images.Idx → EReal) (W : Weights.Idx → EReal) (b : Biases.Idx → EReal) :
    val_main_v7 (F := Ideal) x W b = onImages x W b := by
  funext i
  rw [val_main_v7_apply, val_main_v6_apply]
  unfold val_main_v5
  rw [Host.reduce_eq_fold_single FloatOps.maximumf _ _ reducesTo_S8x256x256x4_S8x256x256_d3 dropFilters h_S_]
  show Finset.fold max (Ideal.ofBits .f32 0xFF800000#32)
      (fun f : Fin 4 => val_main_v4 (F := Ideal) x W b (dropFilters.lift (idx_main_v6 (idx_main_v7 i)) f)) Finset.univ
    = Finset.fold max (Ideal.ofBits .f32 0xFF800000#32)
      (response (fun k => x (ix4 (i 0) (i 1) (i 2) k)) W (fun g => b (ix1 g))) Finset.univ
  exact Finset.fold_congr fun f _ => rectified_apply x W b i f

end Cert.Maxout.Reference

end
-- ==== Proof.lean ====
/-
  The certificate of a maxout layer over a 1×1 convolution: the kernel, tiled over 64 blocks of 8192 pixel rows, against
  the jnp reference on the images.

  Over the extended reals both programs compute, for every pixel, the largest over four filters of
  max (Σₖ xₖ · W(k, f) + b f, 0), folded from −∞, and write it to the pixel's 64 output channels. The kernel's
  narrowing of its matrix operands to bf16 is the identity there, its matrix product into a zero accumulator and the
  reference's contraction are the same sum over the 64 channels, and its reduction over the filter axis and the
  reference's are folds of `max` over the same four responses. Nothing in the comparison needs the inputs finite.

  The three frames are the generated ones (the reference's is its generated run with the result dropped); the ideal pass
  rewrote nothing, so the kernel is its own idealization; the value claim pairs the kernel program's result
  (Proof/KernelLayer.lean) with the reference's (Proof/ReferenceLayer.lean) at one function (Proof/Layer.lean).
-/
import proofs.«128632_j35828617183845_1_alg».proof.Defs
import proofs.«128632_j35828617183845_1_alg».proof.Proof.Gen.Kernel
import proofs.«128632_j35828617183845_1_alg».proof.Proof.Gen.Kernel.Skeleton
import proofs.«128632_j35828617183845_1_alg».proof.Proof.Gen.Kernel.Launch
import proofs.«128632_j35828617183845_1_alg».proof.Proof.Gen.Kernel.Points
import proofs.«128632_j35828617183845_1_alg».proof.Proof.Gen.Kernel.Frame
import proofs.«128632_j35828617183845_1_alg».proof.Proof.Gen.KernelIdeal
import proofs.«128632_j35828617183845_1_alg».proof.Proof.Gen.KernelIdeal.Skeleton
import proofs.«128632_j35828617183845_1_alg».proof.Proof.Gen.KernelIdeal.Launch
import proofs.«128632_j35828617183845_1_alg».proof.Proof.Gen.KernelIdeal.Points
import proofs.«128632_j35828617183845_1_alg».proof.Proof.Gen.KernelIdeal.Frame
import proofs.«128632_j35828617183845_1_alg».proof.Proof.Gen.ReferenceIdeal
import proofs.«128632_j35828617183845_1_alg».proof.Proof.Gen.ReferenceIdeal.Run
import proofs.«128632_j35828617183845_1_alg».proof.Proof.Gen.ReferenceIdeal.Read
import proofs.«128632_j35828617183845_1_alg».proof.Proof.Gen.Pre_finite_inputs
import proofs.«128632_j35828617183845_1_alg».proof.Proof.KernelLayer
import proofs.«128632_j35828617183845_1_alg».proof.Proof.ReferenceLayer
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the images, the weights and the biases, both programs end with their results at the
    maxout layer on images of those arguments. -/
theorem algebraic : Cert.algebraic_KernelIdeal_ReferenceIdeal := by
  intro m ρ m' ρ' _ hagree
  refine ⟨fun c => Cert.Maxout.onImages
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Maxout.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Maxout.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
